-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 512]⟩ ⟨2, ![1, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1x512 : Shape := ⟨2, ![1, 512]⟩
abbrev S2x1x512 : Shape := ⟨3, ![2, 1, 512]⟩
abbrev S_ : Shape := ⟨0, ![]⟩
abbrev S512 : Shape := ⟨1, ![512]⟩
abbrev S1x1x512 : Shape := ⟨3, ![1, 1, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S2x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  shapeCasts_S1x512_S1x1x512 : S1x512.ShapeCasts S1x1x512
  inb_S2x1x512_S1x1x512_1_0_0 : ∀ a, (![1, 0, 0] : Fin 3 → Nat) a + S1x1x512.size a ≤ S2x1x512.size a
  squeezes_S1x1x512_S1x512 : S1x1x512.Squeezes S1x512
  inb_S1x512_S1x512_0_0 : ∀ a, (![0, 0] : Fin 2 → Nat) a + S1x512.size a ≤ S1x512.size a
  h_S1x512 : 0 < S1x512.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x1024_S1024_d0 : S2048x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Peer.lean ====
import Mathlib.Data.Fin.Basic

/-! The mesh is 2 × 2, device `c` sitting at row `c / 2`, column `c % 2`. A device's partner in the exchange is the
    device of the other row in the same column: `c ↦ (c + 2) mod 4`, an involution without fixed points. -/

namespace Cert.Hand

/-- The device in the other mesh row, same column. -/
def peer (c : Fin 4) : Fin 4 := ⟨(c.val + 2) % 4, Nat.mod_lt _ (by decide)⟩

theorem peer_peer (c : Fin 4) : peer (peer c) = c := by revert c; decide
theorem peer_ne (c : Fin 4) : peer c ≠ c := by revert c; decide
theorem peer_val (c : Fin 4) : (peer c).val = (c.val + 2) % 4 := rfl
/-- Row and column of the partner: the other row, the same column. -/
theorem peer_row (c : Fin 4) : (peer c).val / 2 = 1 - c.val / 2 := by revert c; decide
theorem peer_col (c : Fin 4) : (peer c).val % 2 = c.val % 2 := by revert c; decide

end Cert.Hand
-- ==== Proof.ColumnSums.lean ====
import proofs.«901095_g7700000000001096_dist_sum_ax0_xy_m1024_n512_v7x_xy2x2_f32_1_alg».proof.Proof.Peer
import proofs.«901095_g7700000000001096_dist_sum_ax0_xy_m1024_n512_v7x_xy2x2_f32_1_alg».proof.Proof.Gen.KernelIdeal.Skeleton
import proofs.«901095_g7700000000001096_dist_sum_ax0_xy_m1024_n512_v7x_xy2x2_f32_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
noncomputable section
namespace Cert.Hand
open Idealize.ShloMosaic
open Idealize.ShloMosaic.ValueIdx
open scoped BigOperators

/-! # Column sums of an array cut over a 2 × 2 mesh

The whole array has 2048 rows and 1024 columns. Device `c` sits at mesh row `c / 2`, mesh column `c % 2` and
holds the block of rows `[1024 · (c / 2), +1024)` and columns `[512 · (c % 2), +512)`. It sums its block over the
rows, and adds to that row of 512 sums the row of 512 sums of its partner, the device of the other mesh row in the same
mesh column. The reference sums the whole array over its 2048 rows; device `c`'s result is to be columns
`[512 · (c % 2), +512)` of that.

Over the extended reals addition is commutative and associative, so at every column the sum over the 2048 rows is the
sum over rows `0 … 1023` plus the sum over rows `1024 … 2047`, in either order: a device of mesh row 0 adds its own
(upper) half first, a device of mesh row 1 its own (lower) half first. -/

/-! ## A sum over 2048 rows, by halves -/

/-- A sum over 2048 rows is the sum over rows `0 … 1023` plus the sum over rows `1024 … 2047`. -/
theorem sum_rows_split {M : Type*} [AddCommMonoid M] (g : Fin 2048 → M) :
    ∑ k : Fin 2048, g k
      = ∑ r : Fin 1024, g ⟨r.val, by have := r.isLt; omega⟩
        + ∑ r : Fin 1024, g ⟨1024 + r.val, by have := r.isLt; omega⟩ :=
  Fin.sum_univ_add (a := 1024) (b := 1024) g

/-- The two halves in either order: for `a + a' = 1` the sum over 2048 rows is the sum over the half that starts at row
    `1024 · a` plus the sum over the half that starts at row `1024 · a'`. -/
theorem sum_rows_halves {M : Type*} [AddCommMonoid M] (g : Fin 2048 → M) (a a' : ℕ) (h : a + a' = 1) :
    ∑ k : Fin 2048, g k
      = ∑ r : Fin 1024, g ⟨a * 1024 + r.val, by have := r.isLt; omega⟩
        + ∑ r : Fin 1024, g ⟨a' * 1024 + r.val, by have := r.isLt; omega⟩ := by
  obtain ⟨rfl, rfl⟩ | ⟨rfl, rfl⟩ : (a = 0 ∧ a' = 1) ∨ (a = 1 ∧ a' = 0) := by omega
  · rw [sum_rows_split]
    refine congrArg₂ (· + ·) (Finset.sum_congr rfl fun r _ => congrArg g (Fin.ext ?_))
      (Finset.sum_congr rfl fun r _ => congrArg g (Fin.ext ?_))
    · show r.val = 0 * 1024 + r.val
      omega
    · show 1024 + r.val = 1 * 1024 + r.val
      omega
  · rw [sum_rows_split, add_comm]
    refine congrArg₂ (· + ·) (Finset.sum_congr rfl fun r _ => congrArg g (Fin.ext ?_))
      (Finset.sum_congr rfl fun r _ => congrArg g (Fin.ext ?_))
    · show 1024 + r.val = 1 * 1024 + r.val
      omega
    · show r.val = 0 * 1024 + r.val
      omega

/-! ## The kernel's arithmetic at an index -/

/-- A device's row of sums: at column `j`, the sum over the 1024 rows of its block of the block at `(r, j)` (the
    accumulator's word is the zero the sum starts from). -/
theorem block_row_sums_apply (v : FVec Ideal Cert.KernelIdeal.S1024x512 .f32) (j : Fin 512) :
    Cert.KernelIdeal.Gen.k0_pay2 (F := Ideal) v (ix3 (0 : Fin 1) (0 : Fin 1) j) = ∑ r : Fin 1024, v (ix2 r j) := by
  unfold Cert.KernelIdeal.Gen.k0_pay2
  show shapeCast Cert.KernelIdeal.S1x1x512 (shapeCast Cert.KernelIdeal.S1x512
      (multiReduction (F := Ideal) .add [0] Cert.KernelIdeal.S512 (shapeCast Cert.KernelIdeal.S1024x512 v _) 0x00000000#32 _ _ _) _) _
      (ix3 (0 : Fin 1) (0 : Fin 1) j) = _
  rw [shapeCast_ab_1ab_apply, shapeCast_a_1a_apply, shapeCast_self]
  refine (Ideal.multiReduction_add_single (φ := .f32) v 0x00000000#32 _ _ _ (ix1 j)).trans ?_
  refine Finset.sum_congr rfl fun r _ => congrArg v ?_
  funext a
  match a with
  | ⟨0, _⟩ => rfl
  | ⟨1, _⟩ => rfl

/-- The two rows of sums added: at column `j`, the one row's sum plus the other's. -/
theorem added_rows_apply (a b : FVec Ideal Cert.KernelIdeal.S1x1x512 .f32) (j : Fin 512) :
    Cert.KernelIdeal.Gen.k0_pay1 (F := Ideal) a b (ix2 (0 : Fin 1) j)
      = a (ix3 (0 : Fin 1) (0 : Fin 1) j) + b (ix3 (0 : Fin 1) (0 : Fin 1) j) := by
  unfold Cert.KernelIdeal.Gen.k0_pay1
  show addf (shapeCast Cert.KernelIdeal.S1x512 a _) (shapeCast Cert.KernelIdeal.S1x512 b _) (ix2 (0 : Fin 1) j) = _
  rw [addf_apply, shapeCast_1ab_ab_apply, shapeCast_1ab_ab_apply]

/-! ## The reference at an index -/

/-- The reference's row of column sums: at column `q`, the sum over the 2048 rows of the whole array at `(k, q)`
    (the initial value is zero, and `0 + s = s`). -/
theorem reference_apply (x' : (⟨Cert.ReferenceIdeal.S2048x1024, .f32⟩ : BufTy).Contents (Elt Ideal))
    (i : Cert.ReferenceIdeal.S1x1024.Idx) :
    Cert.ReferenceIdeal.Read.val_main_v1 (F := Ideal) x' i
      = ∑ k : Fin 2048, x' (ix2 k (⟨(i 1).val, idx2_lt1 i⟩ : Fin 1024)) := by
  rw [Cert.ReferenceIdeal.Read.val_main_v1_apply, Cert.ReferenceIdeal.Read.val_main_v0_apply,
    Cert.ReferenceIdeal.Read.val_main_cst_apply]
  rw [show FloatOps.ofBits (F := Ideal) .f32 0x00000000#32 = (0 : EReal) from Ideal.ofBits_zero_f32, zero_add]
  refine Finset.sum_congr rfl fun k _ => congrArg x' ?_
  funext a
  match a with
  | ⟨0, _⟩ => rfl
  | ⟨1, _⟩ => rfl

/-! ## Where a device's block lies -/

/-- On the 2 × 2 mesh device `c`'s coordinate on the first mesh axis is `c / 2` … -/
theorem meshLin_row (c : Fin 4) : Layout.meshLin [2, 2] c.val [0] = c.val / 2 := by revert c; decide
/-- … and on the second `c % 2`. -/
theorem meshLin_col (c : Fin 4) : Layout.meshLin [2, 2] c.val [1] = c.val % 2 := by revert c; decide

/-- Device `c`'s block of the whole array at `(r, j)` is the whole array at row `1024 · (c / 2) + r`, column
    `512 · (c % 2) + j`. -/
theorem in_block_apply (x' : (⟨Cert.ReferenceIdeal.S2048x1024, .f32⟩ : BufTy).Contents (Elt Ideal))
    (c : Fin 4) (r : Fin 1024) (j : Fin 512) :
    (Layout.blockN ⟨2, ![1024, 512]⟩ ⟨2, ![2048, 1024]⟩ (Layout.meshBlock [2, 2] ![[0], [1]] c) x') (ix2 r j)
      = x' (ix2 (⟨c.val / 2 * 1024 + r.val, by have := c.isLt; have := r.isLt; omega⟩ : Fin 2048)
          (⟨c.val % 2 * 512 + j.val, by have := c.isLt; have := j.isLt; omega⟩ : Fin 1024)) := by
  rw [Layout.blockN_apply]
  refine congrArg x' (Shape.idx_ext₂ ?_ ?_)
  · show Layout.meshLin [2, 2] c.val [0] * 1024 + r.val = c.val / 2 * 1024 + r.val
    rw [meshLin_row]
  · show Layout.meshLin [2, 2] c.val [1] * 512 + j.val = c.val % 2 * 512 + j.val
    rw [meshLin_col]

/-! ## The device's result is its block of the reference's -/

theorem out_block
    (x' : (⟨Cert.ReferenceIdeal.S2048x1024, .f32⟩ : BufTy).Contents (Elt Ideal))
    (X : Fin 4 → (⟨Cert.KernelIdeal.S1024x512, .f32⟩ : BufTy).Contents (Elt Ideal))
    (hX : ∀ c : Fin 4, X c = Layout.blockN ⟨2, ![1024, 512]⟩ ⟨2, ![2048, 1024]⟩ (Layout.meshBlock [2, 2] ![[0], [1]] c) x')
    (c : Fin 4) :
    Cert.KernelIdeal.Gen.k0_pay1 (F := Ideal) (Cert.KernelIdeal.Gen.k0_pay2 (F := Ideal) (X c)) (Cert.KernelIdeal.Gen.k0_pay2 (F := Ideal) (X (peer c)))
      = Layout.blockN ⟨2, ![1, 512]⟩ ⟨2, ![1, 1024]⟩ (Layout.meshBlock [2, 2] ![[], [1]] c) (Cert.ReferenceIdeal.Read.val_main_v1 (F := Ideal) x') := by
  funext i
  obtain ⟨u, j, rfl⟩ : ∃ (u : Fin 1) (j : Fin 512), i = ix2 u j := ⟨i 0, i 1, eq_ix2 i⟩
  obtain rfl : u = 0 := Subsingleton.elim _ _
  rw [added_rows_apply, block_row_sums_apply, block_row_sums_apply, hX c, hX (peer c), Layout.blockN_apply,
    reference_apply]
  have hrow : c.val / 2 + (peer c).val / 2 = 1 := by have := peer_row c; have := c.isLt; omega
  rw [sum_rows_halves _ (c.val / 2) ((peer c).val / 2) hrow]
  refine congrArg₂ (· + ·) (Finset.sum_congr rfl fun r _ => ?_) (Finset.sum_congr rfl fun r _ => ?_)
  · rw [in_block_apply]
    refine congrArg x' (Shape.idx_ext₂ rfl ?_)
    show c.val % 2 * 512 + j.val = Layout.meshLin [2, 2] c.val [1] * 512 + j.val
    rw [meshLin_col]
  · rw [in_block_apply]
    refine congrArg x' (Shape.idx_ext₂ rfl ?_)
    show (peer c).val % 2 * 512 + j.val = Layout.meshLin [2, 2] c.val [1] * 512 + j.val
    rw [meshLin_col, peer_col]

end Cert.Hand
end
-- ==== Proof.KernelIdealProtocol.lean ====
import proofs.«901095_g7700000000001096_dist_sum_ax0_xy_m1024_n512_v7x_xy2x2_f32_1_alg».proof.Proof.Peer
import proofs.«901095_g7700000000001096_dist_sum_ax0_xy_m1024_n512_v7x_xy2x2_f32_1_alg».proof.Proof.ColumnSums
import proofs.«901095_g7700000000001096_dist_sum_ax0_xy_m1024_n512_v7x_xy2x2_f32_1_alg».proof.Proof.Gen.KernelIdeal
import proofs.«901095_g7700000000001096_dist_sum_ax0_xy_m1024_n512_v7x_xy2x2_f32_1_alg».proof.Proof.Gen.KernelIdeal.Skeleton
import proofs.«901095_g7700000000001096_dist_sum_ax0_xy_m1024_n512_v7x_xy2x2_f32_1_alg».proof.Proof.Gen.KernelIdeal.Launch
import proofs.«901095_g7700000000001096_dist_sum_ax0_xy_m1024_n512_v7x_xy2x2_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

/-!
# The exchange protocol of the two-row column sum

Each device `c` of the 2 × 2 mesh sums its block of `x` over the rows into row 0 of a two-row scratch, and sends that row
to row 1 of the scratch of its partner `peer c` (other mesh row, same column); the result is row 0 plus row 1.
Three semaphores a device: the barrier semaphore (the partner says "I am inside the kernel, my row 1 is yours to write"),
the send semaphore (row 0 has been read out) and the receive semaphore (row 1 has been written).

Under the rounds discipline every one of the three cells has ONE round of ONE duty:
* the barrier cell of `c`: one unit, paid by `peer c`'s signal, handing `c` the row 1 of `peer c`'s scratch (at whatever it
  holds) and the fact that `peer c`'s receive cell is at round 0;
* the send cell of `c`: the row's credit, paid by `c`'s own copy, handing back row 0 of `c`'s scratch, holding `c`'s sums;
* the receive cell of `c`: the row's credit, paid by `peer c`'s copy, handing `c` its row 1, holding `peer c`'s sums.
A device waits on its barrier cell (level 1) while it still owes its partner's receive cell (level 2), and on the send and
receive cells (and the staging cells, level 0) owing nothing above them: no cycle.
-/

noncomputable section

namespace Cert.KernelIdeal.Hand

open Cert.KernelIdeal Cert.KernelIdeal.Gen
open Cert.Hand (peer peer_peer peer_ne)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's copy of the rounds algebra -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The partner -/

/-- Both device chains of the body (the signal's and the copy's) name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The memrefs and the cells -/

abbrev xM : Memref sig .tc .vmem S1024x512 .f32 := Memref.whole cc0_stg0_0
abbrev oM : Memref sig .tc .vmem S1x512 .f32 := Memref.whole cc0_stg1_0
abbrev cM : Memref sig .tc .vmem S2x1x512 .f32 := Memref.whole cc0_scratch0

/-- Row 0 and row 1 of the scratch as rectangles, -/
abbrev rect0 : Rect S2x1x512 := Rect.unit (s := S2x1x512) ![0, 0, 0] S1x1x512.size inb_S2x1x512_S1x1x512_0_0_0
abbrev rect1 : Rect S2x1x512 := Rect.unit (s := S2x1x512) ![1, 0, 0] S1x1x512.size inb_S2x1x512_S1x1x512_1_0_0
/-- as the views the vector loads and stores go through, -/
abbrev A0 : View sig .tc .vmem S1x1x512 .f32 := (cM : Memref sig .tc .vmem S2x1x512 .f32).access rect0
abbrev A1 : View sig .tc .vmem S1x1x512 .f32 := (cM : Memref sig .tc .vmem S2x1x512 .f32).access rect1
/-- and as the squeezed memrefs the copy names: its source (row 0) and its destination (row 1). -/
abbrev srcM : Memref sig .tc .vmem S1x512 .f32 :=
  ((cM : Memref sig .tc .vmem S2x1x512 .f32).slice rect0 (fun _ => rfl)).squeeze S1x512 squeezes_S1x1x512_S1x512
abbrev dstM : Memref sig .tc .vmem S1x512 .f32 :=
  ((cM : Memref sig .tc .vmem S2x1x512 .f32).slice rect1 (fun _ => rfl)).squeeze S1x512 squeezes_S1x1x512_S1x512

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (dstM : Memref sig .tc .vmem S1x512 .f32).view.dmaCredit
theorem N_pos : 0 < N := View.dmaCredit_pos _ (by decide)

/-! ## The two rows of the scratch as sets of its elements -/

abbrev R0 : Finset (cc0_scratch0 : Ref sig .tc).ty.shape.Idx := (srcM : Memref sig .tc .vmem S1x512 .f32).view.set
abbrev R1 : Finset (cc0_scratch0 : Ref sig .tc).ty.shape.Idx := (dstM : Memref sig .tc .vmem S1x512 .f32).view.set

omit [FloatOps F] in
theorem R0_eq : R0 = (A0 : View sig .tc .vmem S1x1x512 .f32).set := View.set_reshape _ _
omit [FloatOps F] in
theorem R1_eq : R1 = (A1 : View sig .tc .vmem S1x1x512 .f32).set := View.set_reshape _ _
omit [FloatOps F] in
theorem R0_rect : R0 = rect0.set := R0_eq.trans (View.set_slice_whole _ _)
omit [FloatOps F] in
theorem R1_rect : R1 = rect1.set := R1_eq.trans (View.set_slice_whole _ _)

omit [FloatOps F] in
/-- An element of the scratch is in row 0 iff its first coordinate is 0, in row 1 iff it is 1. -/
theorem mem_R0 (i : S2x1x512.Idx) : i ∈ R0 ↔ (i 0).val = 0 := by
  rw [R0_rect, Rect.mem_set_unit]
  constructor
  · intro h; have := h 0; simp only [Matrix.cons_val_zero] at this; have h1 : S1x1x512.size 0 = 1 := rfl; omega
  · intro h a
    fin_cases a
    · simp only [Matrix.cons_val_zero]; have h1 : S1x1x512.size 0 = 1 := rfl; show 0 ≤ (i 0).val ∧ (i 0).val < 0 + S1x1x512.size 0; omega
    · exact ⟨Nat.zero_le _, by have := (i 1).isLt; simpa using this⟩
    · exact ⟨Nat.zero_le _, by have := (i 2).isLt; simpa using this⟩

omit [FloatOps F] in
theorem mem_R1 (i : S2x1x512.Idx) : i ∈ R1 ↔ (i 0).val = 1 := by
  rw [R1_rect, Rect.mem_set_unit]
  constructor
  · intro h; have := h 0; simp only [Matrix.cons_val_zero] at this; have h1 : S1x1x512.size 0 = 1 := rfl; omega
  · intro h a
    fin_cases a
    · simp only [Matrix.cons_val_zero]; have h1 : S1x1x512.size 0 = 1 := rfl; show 1 ≤ (i 0).val ∧ (i 0).val < 1 + S1x1x512.size 0; omega
    · exact ⟨Nat.zero_le _, by have := (i 1).isLt; simpa using this⟩
    · exact ⟨Nat.zero_le _, by have := (i 2).isLt; simpa using this⟩

omit [FloatOps F] in
theorem rows_disjoint : Disjoint R0 R1 :=
  Finset.disjoint_left.mpr fun i h0 h1 => by rw [mem_R0] at h0; rw [mem_R1] at h1; omega
omit [FloatOps F] in
theorem rows_cover : R0 ∪ R1 = Finset.univ := by
  ext i
  simp only [Finset.mem_union, Finset.mem_univ, iff_true]
  rw [mem_R0, mem_R1]
  have : (i 0).val < 2 := (i 0).isLt
  omega

/-! ## Contents -/

/-- Device `c`'s block of `x`, as launched. -/
def xblk (c : Dev nD) : (cc0_stg0_0 : Ref sig .tc).ty.Contents (Elt F) :=
  (win0_0.blk (0 : Fin 1)).view.read (Elt F) (m ((c : Thread nD τ).loc main_arg0))

/-- Its column sums, as the row the kernel stores. -/
def rowSum (c : Dev nD) : S1x1x512.Idx → Elt F .f32 := k0_pay2 (xblk m c)

/-- The scratch of device `c` with its own sums in row 0 (elsewhere what the memory held at launch: never looked at); -/
def scr0 (c : Dev nD) : Buf (Elt F) ((c : Thread nD τ).loc cc0_scratch0) :=
  (A0 : View sig .tc .vmem S1x1x512 .f32).write (Elt F) (m ((c : Thread nD τ).loc cc0_scratch0)) (rowSum m c) Finset.univ
/-- and with its partner's row 0 copied into row 1. -/
def scr1 (c : Dev nD) : Buf (Elt F) ((c : Thread nD τ).loc cc0_scratch0) :=
  (dstM : Memref sig .tc .vmem S1x512 .f32).view.write (Elt F) (m ((c : Thread nD τ).loc cc0_scratch0))
    ((srcM : Memref sig .tc .vmem S1x512 .f32).view.read (Elt F) (scr0 m (peer c))) Finset.univ

/-- The kernel's result on device `c`: its sums plus its partner's. -/
def outAt (c : Dev nD) : (cc0_stg1_0 : Ref sig .tc).ty.Contents (Elt F) := k0_pay1 (rowSum m c) (rowSum m (peer c))

omit [FloatOps F] in
/-- Writing one payload through one view on all of it gives contents that agree on the view's elements, whatever was there. -/
theorem write_univ_congr {sp : Space} {s : Shape} {e : EltTy} (v : View sig .tc sp s e) (f g : v.ty.Contents (Elt F)) (w : s.Idx → Elt F e) :
    ∀ i ∈ v.set, v.write (Elt F) f w Finset.univ i = v.write (Elt F) g w Finset.univ i := fun i hi => by
  obtain ⟨y, rfl⟩ := View.exists_emb_of_mem_set v hi
  rw [View.write_emb_of_mem _ _ (Finset.mem_univ y), View.write_emb_of_mem _ _ (Finset.mem_univ y)]

/-! ## The rows as points-to -/

def row0Pts (c : Dev nD) (f : Buf (Elt F) ((c : Thread nD τ).loc cc0_scratch0)) : sProp 𝕄 :=
  (srcM : Memref sig .tc .vmem S1x512 .f32).view.loc (c : Thread nD τ) ↦[(srcM : Memref sig .tc .vmem S1x512 .f32).view.set]{fullShare} f
def row1Pts (c : Dev nD) (f : Buf (Elt F) ((c : Thread nD τ).loc cc0_scratch0)) : sProp 𝕄 :=
  (dstM : Memref sig .tc .vmem S1x512 .f32).view.loc (c : Thread nD τ) ↦[(dstM : Memref sig .tc .vmem S1x512 .f32).view.set]{fullShare} f
def xPts (c : Dev nD) : sProp 𝕄 :=
  (xM : Memref sig .tc .vmem S1024x512 .f32).view.loc (c : Thread nD τ) ↦[(xM : Memref sig .tc .vmem S1024x512 .f32).view.set]{fullShare} xblk m c

omit [FloatOps F] in
instance row0Pts_storable (c : Dev nD) (f) : BI.Storable (upEmb : UEmb _ 𝕄) (row0Pts (F := F) c f) := by unfold row0Pts; infer_instance
omit [FloatOps F] in
instance row1Pts_storable (c : Dev nD) (f) : BI.Storable (upEmb : UEmb _ 𝕄) (row1Pts (F := F) c f) := by unfold row1Pts; infer_instance

omit [FloatOps F] in
/-- The whole scratch is its two rows. -/
theorem scratch_split (c : Dev nD) (f : Buf (Elt F) ((c : Thread nD τ).loc cc0_scratch0)) :
    (((c : Thread nD τ).loc cc0_scratch0) ↦{fullShare} f : sProp 𝕄) ⊣⊢ iprop(row0Pts c f ∗ row1Pts c f) := by
  unfold row0Pts row1Pts
  have h := pointsTo_union (ℓ := (c : Thread nD τ).loc cc0_scratch0) (q := fullShare) (f := f) (Ix := Unit) (Name := ℕ) (U := UU) (Lvl := ℕ)
    (rows_disjoint)
  rw [rows_cover] at h
  exact h

omit [FloatOps F] in
theorem scratch_join (c : Dev nD) (f g : Buf (Elt F) ((c : Thread nD τ).loc cc0_scratch0)) :
    iprop(row0Pts c f ∗ row1Pts c g) ⊢ (iprop(∃ h, ((c : Thread nD τ).loc cc0_scratch0) ↦{fullShare} h) : sProp 𝕄) := by
  unfold row0Pts row1Pts
  have h := pointsTo_join (ℓ := (c : Thread nD τ).loc cc0_scratch0) (q := fullShare) (f := f) (g := g) (Ix := Unit) (Name := ℕ) (U := UU) (Lvl := ℕ)
    (rows_disjoint)
  rw [rows_cover] at h
  exact h.trans (by iintro H; iexists _; iexact H)

/-! ## The schedule -/

/-- What the partner's barrier signal hands `c`: the partner's row 1 (at whatever it holds) and that the partner's
    receive cell is at round 0: what `c`'s copy into it needs. -/
def barPay (c : Dev nD) : sProp 𝕄 := iprop((∃ f, row1Pts (peer c) f) ∗ reached ER (recvCell (peer c)) 0)
/-- What the landing of the partner's copy hands `c`: its row 1, holding the partner's sums. -/
def recvPay (c : Dev nD) : sProp 𝕄 := row1Pts c (scr1 m c)
/-- What the completed read-out of `c`'s own copy hands back: its row 0, holding its sums. -/
def sendPay (c : Dev nD) : sProp 𝕄 := row0Pts c (scr0 m c)

abbrev IsXch (g : GSem nD τ sig) : Prop := g.1.2 = .tc ∧ (g.2 = .reg barS ∨ g.2 = .dma sendS.sem ∨ g.2 = .dma recvS.sem)

/-- One round, round 0, of one duty for each of the three cells: the barrier's of one unit, the send's and the receive's of a row's credit. -/
def xchRd : Rounds.Schedule (GSem nD τ sig) Unit 𝕄 where
  duties g r := if r = 0 ∧ IsXch g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance xchRd_payload_storable (g : GSem nD τ sig) (r : ℕ) (d : Unit) : BI.Storable (upEmb : UEmb _ 𝕄) ((xchRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xchRd (F := F) m).duties (barCell c) 0 = {()} := by dsimp only [xchRd]; exact if_pos ⟨rfl, rfl, .inl rfl⟩
theorem duties_send : (xchRd (F := F) m).duties (sendCell c) 0 = {()} := by dsimp only [xchRd]; exact if_pos ⟨rfl, rfl, .inr (.inl rfl)⟩
theorem duties_recv : (xchRd (F := F) m).duties (recvCell c) 0 = {()} := by dsimp only [xchRd]; exact if_pos ⟨rfl, rfl, .inr (.inr rfl)⟩
theorem duties_later (g : GSem nD τ sig) : ∀ r, 1 ≤ r → (xchRd (F := F) m).duties g r = ∅ :=
  fun r hr => by dsimp only [xchRd]; exact if_neg fun h => by omega

theorem amount_bar (u : Unit) : (xchRd (F := F) m).amount (barCell c) 0 u = 1 := by dsimp only [xchRd]; exact if_pos rfl
theorem amount_send (u : Unit) : (xchRd (F := F) m).amount (sendCell c) 0 u = N := by dsimp only [xchRd]; exact if_neg send_ne_bar
theorem amount_recv (u : Unit) : (xchRd (F := F) m).amount (recvCell c) 0 u = N := by dsimp only [xchRd]; exact if_neg recv_ne_bar

theorem expect_bar : (xchRd (F := F) m).expect (barCell c) 0 = 1 := by
  unfold Schedule.expect Schedule.amountOf; rw [duties_bar, Finset.sum_singleton, amount_bar]
theorem expect_send : (xchRd (F := F) m).expect (sendCell c) 0 = N := by
  unfold Schedule.expect Schedule.amountOf; rw [duties_send, Finset.sum_singleton, amount_send]
theorem expect_recv : (xchRd (F := F) m).expect (recvCell c) 0 = N := by
  unfold Schedule.expect Schedule.amountOf; rw [duties_recv, Finset.sum_singleton, amount_recv]

theorem payload_bar (u : Unit) : (xchRd (F := F) m).payload (barCell c) 0 u = barPay c := by dsimp only [xchRd]; exact if_pos rfl
theorem payload_send (u : Unit) : (xchRd (F := F) m).payload (sendCell c) 0 u = sendPay m c := by
  dsimp only [xchRd]; rw [if_neg send_ne_bar, if_neg send_ne_recv, if_pos rfl]
theorem payload_recv (u : Unit) : (xchRd (F := F) m).payload (recvCell c) 0 u = recvPay m c := by
  dsimp only [xchRd]; rw [if_neg recv_ne_bar, if_pos rfl]

theorem rest_bar : bigSep ((xchRd (F := F) m).duties (barCell c) 0 \ ∅) (fun u => (xchRd (F := F) m).payload (barCell c) 0 u) = barPay c := by
  rw [Finset.sdiff_empty, duties_bar, bigSep_singleton, payload_bar]
theorem rest_send : bigSep ((xchRd (F := F) m).duties (sendCell c) 0 \ ∅) (fun u => (xchRd (F := F) m).payload (sendCell c) 0 u) = sendPay m c := by
  rw [Finset.sdiff_empty, duties_send, bigSep_singleton, payload_send]
theorem rest_recv : bigSep ((xchRd (F := F) m).duties (recvCell c) 0 \ ∅) (fun u => (xchRd (F := F) m).payload (recvCell c) 0 u) = recvPay m c := by
  rw [Finset.sdiff_empty, duties_recv, bigSep_singleton, payload_recv]

end Sched

/-! ## What each device owes at launch; the levels -/

/-- Device `c` owes its partner's receive cell a row's credit and its partner's barrier cell one unit
    (summed so that the signal, which comes first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging semaphore or on the send semaphore sits below everything a device may owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three,
    its partner's barrier cell (its signal) and its partner's receive cell (its copy). -/
def invs (K : Dev nD × Fin 3 → ℕ) (c : Dev nD) : sProp 𝕄 :=
  iprop(cellInv ER (xchRd m) (K (c, 0)) (barCell c) ∗ cellInv ER (xchRd m) (K (c, 1)) (sendCell c) ∗ cellInv ER (xchRd m) (K (c, 2)) (recvCell c)
    ∗ cellInv ER (xchRd m) (K (peer c, 0)) (barCell (peer c)) ∗ cellInv ER (xchRd m) (K (peer c, 2)) (recvCell (peer c)))

instance invs_persistent (K : Dev nD × Fin 3 → ℕ) (c : Dev nD) : BI.Persistent (invs m K c) := by unfold invs; infer_instance

/-- The tokens of the duties device `c` pays: its partner's barrier duty, its partner's receive duty, its own send duty. -/
def payToks (c : Dev nD) : sProp 𝕄 := iprop(dutyTok ER (barCell (peer c)) 0 () ∗ dutyTok ER (recvCell (peer c)) 0 () ∗ dutyTok ER (sendCell c) 0 ())

/-- The exchange's ghost state device `c` starts from: the invariants; its positions at round 0 of its three cells; that
    round 0 is reached of the cells it pays and of its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device `c`'s body starts from: that at some names, its two credit tokens (its barrier's unit, its receive
    cell's credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, ((c : Thread nD τ).loc cc0_scratch0) ↦{fullShare} f)
/-- After the point: the two rows of the scratch at their final contents, the two OWN cells at zero, closed (the barrier
    cell is the runtime's: nothing to hand back). -/
def Φ₁ (c : Dev nD) : sProp 𝕄 := iprop((row0Pts c (scr0 m c) ∗ row1Pts c (scr1 m c)) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 3 → ℕ) (c : Dev nD) : sProp 𝕄 :=
  iprop((ghost m K c ∗ cred (tallyAt (barCell c) () 1) ∗ cred (tallyAt (recvCell c) () N) ∗ levAts L lv
      ∗ ∃ f, ((c : Thread nD τ).loc cc0_scratch0) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xblk m c) ∗ stg c cc0_stg1_0 (outAt m c))

end Cert.KernelIdeal.Hand

end
-- ==== Proof.KernelIdealBody.lean ====
import proofs.«901095_g7700000000001096_dist_sum_ax0_xy_m1024_n512_v7x_xy2x2_f32_1_alg».proof.Proof.KernelIdealProtocol

/-!
# One device's body of the two-row column sum, stepped from the exchange's ghost state

The device signals its partner's barrier cell (handing over its own row 1), sums its block into row 0, waits for its
partner's signal (receiving the partner's row 1), copies row 0 into the partner's row 1, waits until row 0 has been read
out and until its own row 1 has been written, and stores row 0 + row 1.
-/

noncomputable section

namespace Cert.KernelIdeal.Hand

open Cert.KernelIdeal Cert.KernelIdeal.Gen
open Cert.Hand (peer peer_peer peer_ne)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the buffers -/

abbrev rX : Rect S1024x512 := Rect.unit (s := S1024x512) ![0, 0] S1024x512.size inb_S1024x512_S1024x512_0_0
abbrev rO : Rect S1x512 := Rect.unit (s := S1x512) ![0, 0] S1x512.size inb_S1x512_S1x512_0_0

omit [FloatOps F] in
theorem hz2 : (![0, 0] : Fin 2 → Nat) = fun _ => 0 := funext fun a => by fin_cases a <;> rfl
omit [FloatOps F] in
/-- A load of the whole `x` staging buffer reads its contents; -/
theorem read_x (f : (cc0_stg0_0 : Ref sig .tc).ty.Contents (Elt F)) : (xM : Memref sig .tc .vmem S1024x512 .f32).view.readAt (Elt F) rX.toLoadRect f = f :=
  Memref.readAt_unit_zero (Elt F) cc0_stg0_0 hz2 _ f
omit [FloatOps F] in
/-- a store of the whole result staging buffer leaves its payload. -/
theorem write_out (f w : (cc0_stg1_0 : Ref sig .tc).ty.Contents (Elt F)) :
    ((oM : Memref sig .tc .vmem S1x512 .f32).access rO : View sig .tc _ _ _).write (Elt F) f w Finset.univ = w :=
  Memref.write_access_unit_zero_univ (Elt F) cc0_stg1_0 hz2 _ f w

/-- Row 0 of the scratch after the device's store holds its sums; -/
theorem read_row0 (c : Dev nD) : (A0 : View sig .tc .vmem S1x1x512 .f32).read (Elt F) (scr0 m c) = rowSum m c :=
  View.read_write_univ _ _

/-- the copy's source, row 0 read as a 1 × 512 array, is those sums re-indexed; -/
theorem read_src (c : Dev nD) (y : S1x512.Idx) :
    (srcM : Memref sig .tc .vmem S1x512 .f32).view.read (Elt F) (scr0 m c) y = rowSum m c (Shape.reshapeEquiv squeezes_S1x1x512_S1x512.numel_eq y) := by
  have h := congrFun (read_row0 m c) (Shape.reshapeEquiv squeezes_S1x1x512_S1x512.numel_eq y)
  rw [View.read_apply] at h ⊢
  exact h

/-- and row 1 after the partner's copy has landed holds the partner's sums. -/
theorem read_row1 (c : Dev nD) : (A1 : View sig .tc .vmem S1x1x512 .f32).read (Elt F) (scr1 m c) = rowSum m (peer c) := by
  funext x
  have h := congrFun (View.read_write_univ (v := (dstM : Memref sig .tc .vmem S1x512 .f32).view) (Val := Elt F) (m ((c : Thread nD τ).loc cc0_scratch0))
    ((srcM : Memref sig .tc .vmem S1x512 .f32).view.read (Elt F) (scr0 m (peer c)))) ((Shape.reshapeEquiv squeezes_S1x1x512_S1x512.numel_eq).symm x)
  rw [read_src, Equiv.apply_symm_apply] at h
  rw [← h, View.read_apply, View.read_apply]
  show _ = _root_.cast _ (scr1 m c ((A1 : View sig .tc .vmem S1x1x512 .f32).emb
    (Shape.reshapeEquiv squeezes_S1x1x512_S1x512.numel_eq ((Shape.reshapeEquiv squeezes_S1x1x512_S1x512.numel_eq).symm x))))
  rw [Equiv.apply_symm_apply]

/-- On row 0 the scratch after the store is `scr0`, whatever it held before. -/
theorem row0_after_store (c : Dev nD) (f : Buf (Elt F) ((c : Thread nD τ).loc cc0_scratch0)) :
    ∀ i ∈ (srcM : Memref sig .tc .vmem S1x512 .f32).view.set,
      (A0 : View sig .tc .vmem S1x1x512 .f32).write (Elt F) f (rowSum m c) Finset.univ i = scr0 m c i := fun i hi => by
  unfold scr0
  exact write_univ_congr (F := F) A0 f _ _ i (by rw [← R0_eq]; exact hi)

/-! ## The copy, at the exchange's cells -/

/-- The addressed copy of row 0 into the partner's row 1, the partner named `n = peer c` (substituted, not rewritten). -/
theorem wp_send_row (K : Dev nD × Fin 3 → ℕ) (c n : Dev nD) (hn : n = peer c)
    {hsc : (dstM : Memref sig (Dev.tc n : Thread nD τ).2.kind .vmem S1x512 .f32).view.ref.isScScratch = false}
    {hsrc : (srcM : Memref sig .tc .vmem S1x512 .f32).view.WordExact} {hdst : (dstM : Memref sig .tc .vmem S1x512 .f32).view.WordExact}
    {hsem : DmaTarget.Typed .vmem (.dma recvS.sem) (.remote (Dev.tc n : Thread nD τ) (dstM : Memref sig .tc .vmem S1x512 .f32) (.dma sendS.sem) hsc)}
    {α : Type} {Q : α → sProp 𝕄} {k : PUnit → Prog (TpuEff nD τ sig (Elt F) Λ₀ .tc) α}
    (fn : Buf (Elt F) ((dstM : Memref sig .tc .vmem S1x512 .f32).view.loc (peer c : Thread nD τ))) (W : Waits sig Unit) :
    iprop(cellInv ER (xchRd m) (K (c, 1)) (sendCell c) ∗ cellInv ER (xchRd m) (K (peer c, 2)) (recvCell (peer c))
        ∗ row0Pts c (scr0 m c) ∗ row1Pts (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sendS.sem) hsc) (.dma recvS.sem) hsrc hdst hsem) k) Q) := by
  subst hn
  unfold row0Pts row1Pts
  exact Rounds.wp_send_pointsTo 𝒱₀ ER (xchRd m) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by
      rw [payload_recv]; unfold recvPay row1Pts scr1; rw [peer_peer]
      exact Entails.of_eq (pointsTo_congr (write_univ_congr (F := F) (dstM : Memref sig .tc .vmem S1x512 .f32).view fn _ _)))

/-! ## The body -/

section Body

variable (K : Dev nD × Fin 3 → ℕ)

set_option maxHeartbeats 1600000 in
/-- The body, stepped from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs payToks
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  -- the scratch is its two rows
  ihave Hrows := (scratch_split (F := F) c f0).1 $$ Hscr
  icases Hrows with ⟨Hr0, Hr1⟩
  simp only [dev1_eq c]
  -- the SIGNAL to the partner's barrier cell: the device's own row 1 and its receive cell's round go with it
  iapply (Rounds.wp_signal 𝒱₀ ER (xchRd m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP Hr1]
  · isplitr; · iexact HIbarP
    isplitl [HO]; · iexact HO
    isplitl [HtBP]; · iexact HtBP
    isplitl [Hr1]
    · rw [payload_bar]; unfold barPay; rw [peer_peer]
      isplitl [Hr1]; · iexists f0; iexact Hr1
      iexact HrV
    · iexact HrBP
  iintro HO
  -- the block of `x` is loaded, row 0 loaded (its value unused) and stored with the sums
  iapply (wp_load 𝒱₀ (c : Thread nD τ) none Set.univ (m := xM) (Finset.subset_univ _)) $$ Hx; iintro Hx
  rw [read_x]
  unfold row0Pts
  iapply (wp_load_rect 𝒱₀ (c : Thread nD τ) none Set.univ (m := cM) (r := rect0) (by rw [← R0_eq])) $$ Hr0; iintro Hr0
  iapply (wp_store 𝒱₀ (c : Thread nD τ) none Set.univ (m := cM) (r := rect0) (Mk := Finset.univ) (by rw [View.setOn_univ, ← R0_eq])) $$ Hr0; iintro Hr0
  ihave Hr0 := (Entails.of_eq (pointsTo_congr (row0_after_store m c f0))) $$ Hr0
  -- the WAIT for the partner's unit on its own barrier cell, owing the partner's receive credit: the partner's row 1 comes with it
  iapply (Rounds.wp_wait_rest_token 𝒱₀ ER (xchRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HrowP⟩, #HrVP'⟩
  -- the COPY of row 0 into the partner's row 1
  iapply (wp_send_row m K c _ (dev2_eq c) fn (insert (SemLoc.reg barS, ()) W)) $$ [Hr0 HrowP HO HtS HtVP]
  · isplitr; · iexact HIsnd
    isplitr; · iexact HIrcvP
    isplitl [Hr0]; · unfold row0Pts; iexact Hr0
    isplitl [HrowP]; · iexact HrowP
    isplitl [HO]; · iexact HO
    isplitl [HtS]; · iexact HtS
    isplitr; · iexact HrS
    isplitl [HtVP]; · iexact HtVP
    iexact HrVP
  iintro ⟨HcS, HO⟩
  -- the wait on its SEND cell: row 0 back, holding the sums
  iapply (Rounds.wp_wait_rest_token 𝒱₀ ER (xchRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hr0 := (Entails.of_eq (rest_send m c)) $$ Hpay
  -- the wait on its RECEIVE cell: row 1, holding the partner's sums
  iapply (Rounds.wp_wait_rest_token 𝒱₀ ER (xchRd m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hr1 := (Entails.of_eq (rest_recv m c)) $$ Hpay
  unfold sendPay recvPay row0Pts row1Pts
  -- the two own cells close: their counters at zero are the device's again
  imod (Rounds.cell_close ER (xchRd m) (Set.mem_univ (K (c, 1))) (fun h => h) (R := 0 + 1) (duties_later m (sendCell c))) $$ [HatS] with HzS
  · isplitr; · iexact HIsnd
    iexact HatS
  imod (Rounds.cell_close ER (xchRd m) (Set.mem_univ (K (c, 2))) (fun h => h) (R := 0 + 1) (duties_later m (recvCell c))) $$ [HatV] with HzV
  · isplitr; · iexact HIrcv
    iexact HatV
  -- the two rows are loaded, the result staging buffer loaded (unused) and stored with their sum
  iapply (wp_load_rect 𝒱₀ (c : Thread nD τ) none Set.univ (m := cM) (r := rect0) (by rw [← R0_eq])) $$ Hr0; iintro Hr0
  rw [read_row0]
  iapply (wp_load_rect 𝒱₀ (c : Thread nD τ) none Set.univ (m := cM) (r := rect1) (by rw [← R1_eq])) $$ Hr1; iintro Hr1
  rw [read_row1]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m 0 c).owed t₀.succ = 0 from rfl]
  isplitl [Hr0 Hr1 HzS HzV]
  · isplitl [Hr0 Hr1]
    · isplitl [Hr0]; · unfold row0Pts; iexact Hr0
      unfold row1Pts; iexact Hr1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdeal.Hand.body_obligation' depends on axioms: [propext, Classical.choice, Quot.sound] -/
#guard_msgs in #print axioms body_obligation

end Cert.KernelIdeal.Hand

end
-- ==== Proof.KernelIdealLaunch.lean ====
import proofs.«901095_g7700000000001096_dist_sum_ax0_xy_m1024_n512_v7x_xy2x2_f32_1_alg».proof.Proof.KernelIdealBody

/-!
# The launch of the two-row column sum on the four devices

From "each device's body is proved from the exchange's ghost state" to the run of the whole program: the three cells of
every device are allocated for all devices at once (the barrier semaphore is the runtime's, not the kernel's own), the duty
tokens are dealt to the devices that pay them (a device's barrier and receive tokens go to its partner), the launch credit
of every cell is what its payer owes it, and every wait sits below what the waiter still owes.
-/

noncomputable section

namespace Cert.KernelIdeal.Hand

open Cert.KernelIdeal Cert.KernelIdeal.Gen
open Cert.Hand (peer peer_peer peer_ne)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xchCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xchToks : Finset (GSem nD τ sig × ℕ × Unit) := Finset.univ.map ⟨tokOf, tokOf_injective⟩

def u₀ : UU :=
  (initOf (Pipeline.cells cfgs cellOf_inj) (Pipeline.launchToks cfgs cellOf_inj), initOf xchCells xchToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (xchRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_xch : BI.own (ER (initOf xchCells xchToks)) ⊢ (|==> bigSep Finset.univ (G m) : sProp 𝕄) := by
  have hX (Φ : GSem nD τ sig → sProp 𝕄) : bigSep xchCells Φ = bigSep Finset.univ fun c : Dev nD => bigSep Finset.univ fun k : Fin 3 => Φ (kcell (c, k)) := by
    unfold xchCells; rw [bigSep_map, bigSep_univ_prod]; rfl
  have hT : bigSep xchToks (fun x => (dutyTok ER x.1 x.2.1 x.2.2 : sProp 𝕄)) = bigSep Finset.univ fun c : Dev nD => toks c := by
    unfold xchToks; rw [bigSep_map, bigSep_univ_prod]
    exact bigSep_congr fun c _ => by unfold toks; rw [bigSep_fin3]; rfl
  iintro HX
  imod (Rounds.fund ER (xchRd m) xchCells xchToks) $$ HX with ⟨Hst, Hr, Hat, Htok⟩
  imodintro
  ihave Hst' := (Entails.of_eq (hX fun g => roundState ER (xchRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xchRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xchRd m) (kcell (c, k)) 0)
      ⊢ (|={Set.univ}=> bigSep Finset.univ fun k => iprop(∃ κ : ℕ, cellInv ER (xchRd m) κ (kcell (c, k))) : sProp 𝕄) from by
        rw [← bigSep_sep']
        exact (bigSep_mono fun k _ => (Rounds.body_intro ER (xchRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xchRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (xchRd m) (K ck) (kcell ck) : sProp 𝕄)) ⊢ cellInv ER (xchRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs payToks
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the rows of the mesh: a device's barrier token and receive token go to its partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xchRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (xchRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xchRd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
theorem eq_peer_iff {d c : Dev nD} : Iff (peer d = c) (d = peer c) :=
  ⟨fun h => by rw [← h, peer_peer], fun h => by rw [h, peer_peer]⟩

omit [FloatOps F] in
/-- What device `d` owes device `c`'s barrier cell: a unit if `d` is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iapply (scratch_join (F := F) c (scr0 m c) (scr1 m c)); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters, GIVEN each device's body:
    every weakly fair execution of @main terminates, and every final state has each device's arrays at the computed contents. -/
theorem run_of_body (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_xch m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m c (0 : Fin 2) = m (win0_0.arr.view.loc (c : Thread nD τ)) :=
  (dats (F := F) m 0 c).arrAt_in (0 : Fin 2) rfl _

end Cert.KernelIdeal.Hand

end
-- ==== Proof.KernelIdealRun.lean ====
import proofs.«901095_g7700000000001096_dist_sum_ax0_xy_m1024_n512_v7x_xy2x2_f32_1_alg».proof.Proof.KernelIdealBody
import proofs.«901095_g7700000000001096_dist_sum_ax0_xy_m1024_n512_v7x_xy2x2_f32_1_alg».proof.Proof.KernelIdealLaunch

/-!
# The run of the two-row column sum on the four devices, with its values

Every weakly fair execution terminates; each device's block of `x` ends as it was launched, and its result array ends
holding its column sums plus its partner's.
-/

noncomputable section

namespace Cert.KernelIdeal.Hand

open Cert.KernelIdeal Cert.KernelIdeal.Gen
open Cert.Hand (peer peer_peer peer_ne)

open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

theorem run_main : θ_run defs (onTc (τ := τ) (main (F := F))) ⟨m, fun _ => 0, ρ⟩ (QC m) :=
  run_of_body m ρ (body_obligation m)

/-- The result array's one block (the whole array) read back is what the body left in the result staging buffer. -/
theorem final_out_read (c : Dev nD) :
    (win0_1.blk (0 : Fin 1)).view.read (Elt F) (finalA m c (1 : Fin 2)) = outAt m c := by
  unfold finalA
  rw [show cfg0.N = (t₀ : Fin cfg0.N).val + 1 from rfl, (dats m 0 c).arrAt_succ (1 : Fin 2) t₀]
  rw [show (cfg0.win (1 : Fin 2)).flush t₀ = true from flush0_1 t₀, if_pos rfl]
  exact View.read_write_univ _ _

/-- So the result array ends holding the device's sums plus its partner's. -/
theorem final_out (c : Dev nD) : finalA m c (1 : Fin 2) = outAt m c := by
  have h := final_out_read m c
  have hz : (fun a => (win0_1.index (0 : Fin 1)) a * main_v1.ty.shape.size a) = fun _ => 0 := funext fun a => by fin_cases a <;> decide
  rw [Memref.read_access_unit_zero (Elt F) main_v1 hz (fun a => by fin_cases a <;> decide)] at h
  exact h

/-- The block of `x` a device sums is its argument array as launched. -/
theorem xblk_eq (c : Dev nD) : xblk m c = m ((c : Thread nD τ).loc main_arg0) := by
  unfold xblk
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- THE RUN, with values: every weakly fair execution of @main on the four devices terminates, each device's result array
    ends at its column sums plus its partner's (the kernel's two payloads of the two argument blocks), and its argument
    array ends unchanged. -/
theorem run :
    θ_run defs (onTc (τ := τ) (main (F := F))) ⟨m, fun _ => 0, ρ⟩ (fun r => ∀ c : Dev nD,
      r.2.mem ((c.tc : Thread nD τ).loc main_v1)
          = k0_pay1 (k0_pay2 (m ((c : Thread nD τ).loc main_arg0))) (k0_pay2 (m ((peer c : Thread nD τ).loc main_arg0)))
        ∧ r.2.mem ((c.tc : Thread nD τ).loc main_arg0) = m ((c.tc : Thread nD τ).loc main_arg0)) :=
  (θ_run defs _ _).mono (fun _ h c =>
      ⟨((h c (1 : Fin 2)).trans (final_out m c)).trans (by unfold outAt rowSum; rw [xblk_eq, xblk_eq]),
       (h c (0 : Fin 2)).trans (finalA_x m c)⟩)
    (run_main m ρ)

/-- info: 'Cert.KernelIdeal.Hand.run' depends on axioms: [propext, Classical.choice, Quot.sound] -/
#guard_msgs in #print axioms run

end Cert.KernelIdeal.Hand

end
-- ==== Proof.KernelProtocol.lean ====
import proofs.«901095_g7700000000001096_dist_sum_ax0_xy_m1024_n512_v7x_xy2x2_f32_1_alg».proof.Proof.KernelIdealRun
import proofs.«901095_g7700000000001096_dist_sum_ax0_xy_m1024_n512_v7x_xy2x2_f32_1_alg».proof.Proof.Peer
import proofs.«901095_g7700000000001096_dist_sum_ax0_xy_m1024_n512_v7x_xy2x2_f32_1_alg».proof.Proof.ColumnSums
import proofs.«901095_g7700000000001096_dist_sum_ax0_xy_m1024_n512_v7x_xy2x2_f32_1_alg».proof.Proof.Gen.Kernel
import proofs.«901095_g7700000000001096_dist_sum_ax0_xy_m1024_n512_v7x_xy2x2_f32_1_alg».proof.Proof.Gen.Kernel.Skeleton
import proofs.«901095_g7700000000001096_dist_sum_ax0_xy_m1024_n512_v7x_xy2x2_f32_1_alg».proof.Proof.Gen.Kernel.Launch
import proofs.«901095_g7700000000001096_dist_sum_ax0_xy_m1024_n512_v7x_xy2x2_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

/-!
# The exchange protocol of the two-row column sum

Each device `c` of the 2 × 2 mesh sums its block of `x` over the rows into row 0 of a two-row scratch, and sends that row
to row 1 of the scratch of its partner `peer c` (other mesh row, same column); the result is row 0 plus row 1.
Three semaphores a device: the barrier semaphore (the partner says "I am inside the kernel, my row 1 is yours to write"),
the send semaphore (row 0 has been read out) and the receive semaphore (row 1 has been written).

Under the rounds discipline every one of the three cells has ONE round of ONE duty:
* the barrier cell of `c`: one unit, paid by `peer c`'s signal, handing `c` the row 1 of `peer c`'s scratch (at whatever it
  holds) and the fact that `peer c`'s receive cell is at round 0;
* the send cell of `c`: the row's credit, paid by `c`'s own copy, handing back row 0 of `c`'s scratch, holding `c`'s sums;
* the receive cell of `c`: the row's credit, paid by `peer c`'s copy, handing `c` its row 1, holding `peer c`'s sums.
A device waits on its barrier cell (level 1) while it still owes its partner's receive cell (level 2), and on the send and
receive cells (and the staging cells, level 0) owing nothing above them: no cycle.
-/

noncomputable section

namespace Cert.Kernel.Hand

open Cert.Kernel Cert.Kernel.Gen
open Cert.Hand (peer peer_peer peer_ne)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's copy of the rounds algebra -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The partner -/

/-- Both device chains of the body (the signal's and the copy's) name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The memrefs and the cells -/

abbrev xM : Memref sig .tc .vmem S1024x512 .f32 := Memref.whole cc0_stg0_0
abbrev oM : Memref sig .tc .vmem S1x512 .f32 := Memref.whole cc0_stg1_0
abbrev cM : Memref sig .tc .vmem S2x1x512 .f32 := Memref.whole cc0_scratch0

/-- Row 0 and row 1 of the scratch as rectangles, -/
abbrev rect0 : Rect S2x1x512 := Rect.unit (s := S2x1x512) ![0, 0, 0] S1x1x512.size inb_S2x1x512_S1x1x512_0_0_0
abbrev rect1 : Rect S2x1x512 := Rect.unit (s := S2x1x512) ![1, 0, 0] S1x1x512.size inb_S2x1x512_S1x1x512_1_0_0
/-- as the views the vector loads and stores go through, -/
abbrev A0 : View sig .tc .vmem S1x1x512 .f32 := (cM : Memref sig .tc .vmem S2x1x512 .f32).access rect0
abbrev A1 : View sig .tc .vmem S1x1x512 .f32 := (cM : Memref sig .tc .vmem S2x1x512 .f32).access rect1
/-- and as the squeezed memrefs the copy names: its source (row 0) and its destination (row 1). -/
abbrev srcM : Memref sig .tc .vmem S1x512 .f32 :=
  ((cM : Memref sig .tc .vmem S2x1x512 .f32).slice rect0 (fun _ => rfl)).squeeze S1x512 squeezes_S1x1x512_S1x512
abbrev dstM : Memref sig .tc .vmem S1x512 .f32 :=
  ((cM : Memref sig .tc .vmem S2x1x512 .f32).slice rect1 (fun _ => rfl)).squeeze S1x512 squeezes_S1x1x512_S1x512

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (dstM : Memref sig .tc .vmem S1x512 .f32).view.dmaCredit
theorem N_pos : 0 < N := View.dmaCredit_pos _ (by decide)

/-! ## The two rows of the scratch as sets of its elements -/

abbrev R0 : Finset (cc0_scratch0 : Ref sig .tc).ty.shape.Idx := (srcM : Memref sig .tc .vmem S1x512 .f32).view.set
abbrev R1 : Finset (cc0_scratch0 : Ref sig .tc).ty.shape.Idx := (dstM : Memref sig .tc .vmem S1x512 .f32).view.set

omit [FloatOps F] in
theorem R0_eq : R0 = (A0 : View sig .tc .vmem S1x1x512 .f32).set := View.set_reshape _ _
omit [FloatOps F] in
theorem R1_eq : R1 = (A1 : View sig .tc .vmem S1x1x512 .f32).set := View.set_reshape _ _
omit [FloatOps F] in
theorem R0_rect : R0 = rect0.set := R0_eq.trans (View.set_slice_whole _ _)
omit [FloatOps F] in
theorem R1_rect : R1 = rect1.set := R1_eq.trans (View.set_slice_whole _ _)

omit [FloatOps F] in
/-- An element of the scratch is in row 0 iff its first coordinate is 0, in row 1 iff it is 1. -/
theorem mem_R0 (i : S2x1x512.Idx) : i ∈ R0 ↔ (i 0).val = 0 := by
  rw [R0_rect, Rect.mem_set_unit]
  constructor
  · intro h; have := h 0; simp only [Matrix.cons_val_zero] at this; have h1 : S1x1x512.size 0 = 1 := rfl; omega
  · intro h a
    fin_cases a
    · simp only [Matrix.cons_val_zero]; have h1 : S1x1x512.size 0 = 1 := rfl; show 0 ≤ (i 0).val ∧ (i 0).val < 0 + S1x1x512.size 0; omega
    · exact ⟨Nat.zero_le _, by have := (i 1).isLt; simpa using this⟩
    · exact ⟨Nat.zero_le _, by have := (i 2).isLt; simpa using this⟩

omit [FloatOps F] in
theorem mem_R1 (i : S2x1x512.Idx) : i ∈ R1 ↔ (i 0).val = 1 := by
  rw [R1_rect, Rect.mem_set_unit]
  constructor
  · intro h; have := h 0; simp only [Matrix.cons_val_zero] at this; have h1 : S1x1x512.size 0 = 1 := rfl; omega
  · intro h a
    fin_cases a
    · simp only [Matrix.cons_val_zero]; have h1 : S1x1x512.size 0 = 1 := rfl; show 1 ≤ (i 0).val ∧ (i 0).val < 1 + S1x1x512.size 0; omega
    · exact ⟨Nat.zero_le _, by have := (i 1).isLt; simpa using this⟩
    · exact ⟨Nat.zero_le _, by have := (i 2).isLt; simpa using this⟩

omit [FloatOps F] in
theorem rows_disjoint : Disjoint R0 R1 :=
  Finset.disjoint_left.mpr fun i h0 h1 => by rw [mem_R0] at h0; rw [mem_R1] at h1; omega
omit [FloatOps F] in
theorem rows_cover : R0 ∪ R1 = Finset.univ := by
  ext i
  simp only [Finset.mem_union, Finset.mem_univ, iff_true]
  rw [mem_R0, mem_R1]
  have : (i 0).val < 2 := (i 0).isLt
  omega

/-! ## Contents -/

/-- Device `c`'s block of `x`, as launched. -/
def xblk (c : Dev nD) : (cc0_stg0_0 : Ref sig .tc).ty.Contents (Elt F) :=
  (win0_0.blk (0 : Fin 1)).view.read (Elt F) (m ((c : Thread nD τ).loc main_arg0))

/-- Its column sums, as the row the kernel stores. -/
def rowSum (c : Dev nD) : S1x1x512.Idx → Elt F .f32 := k0_pay2 (xblk m c)

/-- The scratch of device `c` with its own sums in row 0 (elsewhere what the memory held at launch: never looked at); -/
def scr0 (c : Dev nD) : Buf (Elt F) ((c : Thread nD τ).loc cc0_scratch0) :=
  (A0 : View sig .tc .vmem S1x1x512 .f32).write (Elt F) (m ((c : Thread nD τ).loc cc0_scratch0)) (rowSum m c) Finset.univ
/-- and with its partner's row 0 copied into row 1. -/
def scr1 (c : Dev nD) : Buf (Elt F) ((c : Thread nD τ).loc cc0_scratch0) :=
  (dstM : Memref sig .tc .vmem S1x512 .f32).view.write (Elt F) (m ((c : Thread nD τ).loc cc0_scratch0))
    ((srcM : Memref sig .tc .vmem S1x512 .f32).view.read (Elt F) (scr0 m (peer c))) Finset.univ

/-- The kernel's result on device `c`: its sums plus its partner's. -/
def outAt (c : Dev nD) : (cc0_stg1_0 : Ref sig .tc).ty.Contents (Elt F) := k0_pay1 (rowSum m c) (rowSum m (peer c))

omit [FloatOps F] in
/-- Writing one payload through one view on all of it gives contents that agree on the view's elements, whatever was there. -/
theorem write_univ_congr {sp : Space} {s : Shape} {e : EltTy} (v : View sig .tc sp s e) (f g : v.ty.Contents (Elt F)) (w : s.Idx → Elt F e) :
    ∀ i ∈ v.set, v.write (Elt F) f w Finset.univ i = v.write (Elt F) g w Finset.univ i := fun i hi => by
  obtain ⟨y, rfl⟩ := View.exists_emb_of_mem_set v hi
  rw [View.write_emb_of_mem _ _ (Finset.mem_univ y), View.write_emb_of_mem _ _ (Finset.mem_univ y)]

/-! ## The rows as points-to -/

def row0Pts (c : Dev nD) (f : Buf (Elt F) ((c : Thread nD τ).loc cc0_scratch0)) : sProp 𝕄 :=
  (srcM : Memref sig .tc .vmem S1x512 .f32).view.loc (c : Thread nD τ) ↦[(srcM : Memref sig .tc .vmem S1x512 .f32).view.set]{fullShare} f
def row1Pts (c : Dev nD) (f : Buf (Elt F) ((c : Thread nD τ).loc cc0_scratch0)) : sProp 𝕄 :=
  (dstM : Memref sig .tc .vmem S1x512 .f32).view.loc (c : Thread nD τ) ↦[(dstM : Memref sig .tc .vmem S1x512 .f32).view.set]{fullShare} f
def xPts (c : Dev nD) : sProp 𝕄 :=
  (xM : Memref sig .tc .vmem S1024x512 .f32).view.loc (c : Thread nD τ) ↦[(xM : Memref sig .tc .vmem S1024x512 .f32).view.set]{fullShare} xblk m c

omit [FloatOps F] in
instance row0Pts_storable (c : Dev nD) (f) : BI.Storable (upEmb : UEmb _ 𝕄) (row0Pts (F := F) c f) := by unfold row0Pts; infer_instance
omit [FloatOps F] in
instance row1Pts_storable (c : Dev nD) (f) : BI.Storable (upEmb : UEmb _ 𝕄) (row1Pts (F := F) c f) := by unfold row1Pts; infer_instance

omit [FloatOps F] in
/-- The whole scratch is its two rows. -/
theorem scratch_split (c : Dev nD) (f : Buf (Elt F) ((c : Thread nD τ).loc cc0_scratch0)) :
    (((c : Thread nD τ).loc cc0_scratch0) ↦{fullShare} f : sProp 𝕄) ⊣⊢ iprop(row0Pts c f ∗ row1Pts c f) := by
  unfold row0Pts row1Pts
  have h := pointsTo_union (ℓ := (c : Thread nD τ).loc cc0_scratch0) (q := fullShare) (f := f) (Ix := Unit) (Name := ℕ) (U := UU) (Lvl := ℕ)
    (rows_disjoint)
  rw [rows_cover] at h
  exact h

omit [FloatOps F] in
theorem scratch_join (c : Dev nD) (f g : Buf (Elt F) ((c : Thread nD τ).loc cc0_scratch0)) :
    iprop(row0Pts c f ∗ row1Pts c g) ⊢ (iprop(∃ h, ((c : Thread nD τ).loc cc0_scratch0) ↦{fullShare} h) : sProp 𝕄) := by
  unfold row0Pts row1Pts
  have h := pointsTo_join (ℓ := (c : Thread nD τ).loc cc0_scratch0) (q := fullShare) (f := f) (g := g) (Ix := Unit) (Name := ℕ) (U := UU) (Lvl := ℕ)
    (rows_disjoint)
  rw [rows_cover] at h
  exact h.trans (by iintro H; iexists _; iexact H)

/-! ## The schedule -/

/-- What the partner's barrier signal hands `c`: the partner's row 1 (at whatever it holds) and that the partner's
    receive cell is at round 0: what `c`'s copy into it needs. -/
def barPay (c : Dev nD) : sProp 𝕄 := iprop((∃ f, row1Pts (peer c) f) ∗ reached ER (recvCell (peer c)) 0)
/-- What the landing of the partner's copy hands `c`: its row 1, holding the partner's sums. -/
def recvPay (c : Dev nD) : sProp 𝕄 := row1Pts c (scr1 m c)
/-- What the completed read-out of `c`'s own copy hands back: its row 0, holding its sums. -/
def sendPay (c : Dev nD) : sProp 𝕄 := row0Pts c (scr0 m c)

abbrev IsXch (g : GSem nD τ sig) : Prop := g.1.2 = .tc ∧ (g.2 = .reg barS ∨ g.2 = .dma sendS.sem ∨ g.2 = .dma recvS.sem)

/-- One round, round 0, of one duty for each of the three cells: the barrier's of one unit, the send's and the receive's of a row's credit. -/
def xchRd : Rounds.Schedule (GSem nD τ sig) Unit 𝕄 where
  duties g r := if r = 0 ∧ IsXch g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance xchRd_payload_storable (g : GSem nD τ sig) (r : ℕ) (d : Unit) : BI.Storable (upEmb : UEmb _ 𝕄) ((xchRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xchRd (F := F) m).duties (barCell c) 0 = {()} := by dsimp only [xchRd]; exact if_pos ⟨rfl, rfl, .inl rfl⟩
theorem duties_send : (xchRd (F := F) m).duties (sendCell c) 0 = {()} := by dsimp only [xchRd]; exact if_pos ⟨rfl, rfl, .inr (.inl rfl)⟩
theorem duties_recv : (xchRd (F := F) m).duties (recvCell c) 0 = {()} := by dsimp only [xchRd]; exact if_pos ⟨rfl, rfl, .inr (.inr rfl)⟩
theorem duties_later (g : GSem nD τ sig) : ∀ r, 1 ≤ r → (xchRd (F := F) m).duties g r = ∅ :=
  fun r hr => by dsimp only [xchRd]; exact if_neg fun h => by omega

theorem amount_bar (u : Unit) : (xchRd (F := F) m).amount (barCell c) 0 u = 1 := by dsimp only [xchRd]; exact if_pos rfl
theorem amount_send (u : Unit) : (xchRd (F := F) m).amount (sendCell c) 0 u = N := by dsimp only [xchRd]; exact if_neg send_ne_bar
theorem amount_recv (u : Unit) : (xchRd (F := F) m).amount (recvCell c) 0 u = N := by dsimp only [xchRd]; exact if_neg recv_ne_bar

theorem expect_bar : (xchRd (F := F) m).expect (barCell c) 0 = 1 := by
  unfold Schedule.expect Schedule.amountOf; rw [duties_bar, Finset.sum_singleton, amount_bar]
theorem expect_send : (xchRd (F := F) m).expect (sendCell c) 0 = N := by
  unfold Schedule.expect Schedule.amountOf; rw [duties_send, Finset.sum_singleton, amount_send]
theorem expect_recv : (xchRd (F := F) m).expect (recvCell c) 0 = N := by
  unfold Schedule.expect Schedule.amountOf; rw [duties_recv, Finset.sum_singleton, amount_recv]

theorem payload_bar (u : Unit) : (xchRd (F := F) m).payload (barCell c) 0 u = barPay c := by dsimp only [xchRd]; exact if_pos rfl
theorem payload_send (u : Unit) : (xchRd (F := F) m).payload (sendCell c) 0 u = sendPay m c := by
  dsimp only [xchRd]; rw [if_neg send_ne_bar, if_neg send_ne_recv, if_pos rfl]
theorem payload_recv (u : Unit) : (xchRd (F := F) m).payload (recvCell c) 0 u = recvPay m c := by
  dsimp only [xchRd]; rw [if_neg recv_ne_bar, if_pos rfl]

theorem rest_bar : bigSep ((xchRd (F := F) m).duties (barCell c) 0 \ ∅) (fun u => (xchRd (F := F) m).payload (barCell c) 0 u) = barPay c := by
  rw [Finset.sdiff_empty, duties_bar, bigSep_singleton, payload_bar]
theorem rest_send : bigSep ((xchRd (F := F) m).duties (sendCell c) 0 \ ∅) (fun u => (xchRd (F := F) m).payload (sendCell c) 0 u) = sendPay m c := by
  rw [Finset.sdiff_empty, duties_send, bigSep_singleton, payload_send]
theorem rest_recv : bigSep ((xchRd (F := F) m).duties (recvCell c) 0 \ ∅) (fun u => (xchRd (F := F) m).payload (recvCell c) 0 u) = recvPay m c := by
  rw [Finset.sdiff_empty, duties_recv, bigSep_singleton, payload_recv]

end Sched

/-! ## What each device owes at launch; the levels -/

/-- Device `c` owes its partner's receive cell a row's credit and its partner's barrier cell one unit
    (summed so that the signal, which comes first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging semaphore or on the send semaphore sits below everything a device may owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three,
    its partner's barrier cell (its signal) and its partner's receive cell (its copy). -/
def invs (K : Dev nD × Fin 3 → ℕ) (c : Dev nD) : sProp 𝕄 :=
  iprop(cellInv ER (xchRd m) (K (c, 0)) (barCell c) ∗ cellInv ER (xchRd m) (K (c, 1)) (sendCell c) ∗ cellInv ER (xchRd m) (K (c, 2)) (recvCell c)
    ∗ cellInv ER (xchRd m) (K (peer c, 0)) (barCell (peer c)) ∗ cellInv ER (xchRd m) (K (peer c, 2)) (recvCell (peer c)))

instance invs_persistent (K : Dev nD × Fin 3 → ℕ) (c : Dev nD) : BI.Persistent (invs m K c) := by unfold invs; infer_instance

/-- The tokens of the duties device `c` pays: its partner's barrier duty, its partner's receive duty, its own send duty. -/
def payToks (c : Dev nD) : sProp 𝕄 := iprop(dutyTok ER (barCell (peer c)) 0 () ∗ dutyTok ER (recvCell (peer c)) 0 () ∗ dutyTok ER (sendCell c) 0 ())

/-- The exchange's ghost state device `c` starts from: the invariants; its positions at round 0 of its three cells; that
    round 0 is reached of the cells it pays and of its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device `c`'s body starts from: that at some names, its two credit tokens (its barrier's unit, its receive
    cell's credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, ((c : Thread nD τ).loc cc0_scratch0) ↦{fullShare} f)
/-- After the point: the two rows of the scratch at their final contents, the two OWN cells at zero, closed (the barrier
    cell is the runtime's: nothing to hand back). -/
def Φ₁ (c : Dev nD) : sProp 𝕄 := iprop((row0Pts c (scr0 m c) ∗ row1Pts c (scr1 m c)) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 3 → ℕ) (c : Dev nD) : sProp 𝕄 :=
  iprop((ghost m K c ∗ cred (tallyAt (barCell c) () 1) ∗ cred (tallyAt (recvCell c) () N) ∗ levAts L lv
      ∗ ∃ f, ((c : Thread nD τ).loc cc0_scratch0) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xblk m c) ∗ stg c cc0_stg1_0 (outAt m c))

end Cert.Kernel.Hand

end
-- ==== Proof.KernelBody.lean ====
import proofs.«901095_g7700000000001096_dist_sum_ax0_xy_m1024_n512_v7x_xy2x2_f32_1_alg».proof.Proof.KernelIdealRun
import proofs.«901095_g7700000000001096_dist_sum_ax0_xy_m1024_n512_v7x_xy2x2_f32_1_alg».proof.Proof.KernelProtocol

/-!
# One device's body of the two-row column sum, stepped from the exchange's ghost state

The device signals its partner's barrier cell (handing over its own row 1), sums its block into row 0, waits for its
partner's signal (receiving the partner's row 1), copies row 0 into the partner's row 1, waits until row 0 has been read
out and until its own row 1 has been written, and stores row 0 + row 1.
-/

noncomputable section

namespace Cert.Kernel.Hand

open Cert.Kernel Cert.Kernel.Gen
open Cert.Hand (peer peer_peer peer_ne)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the buffers -/

abbrev rX : Rect S1024x512 := Rect.unit (s := S1024x512) ![0, 0] S1024x512.size inb_S1024x512_S1024x512_0_0
abbrev rO : Rect S1x512 := Rect.unit (s := S1x512) ![0, 0] S1x512.size inb_S1x512_S1x512_0_0

omit [FloatOps F] in
theorem hz2 : (![0, 0] : Fin 2 → Nat) = fun _ => 0 := funext fun a => by fin_cases a <;> rfl
omit [FloatOps F] in
/-- A load of the whole `x` staging buffer reads its contents; -/
theorem read_x (f : (cc0_stg0_0 : Ref sig .tc).ty.Contents (Elt F)) : (xM : Memref sig .tc .vmem S1024x512 .f32).view.readAt (Elt F) rX.toLoadRect f = f :=
  Memref.readAt_unit_zero (Elt F) cc0_stg0_0 hz2 _ f
omit [FloatOps F] in
/-- a store of the whole result staging buffer leaves its payload. -/
theorem write_out (f w : (cc0_stg1_0 : Ref sig .tc).ty.Contents (Elt F)) :
    ((oM : Memref sig .tc .vmem S1x512 .f32).access rO : View sig .tc _ _ _).write (Elt F) f w Finset.univ = w :=
  Memref.write_access_unit_zero_univ (Elt F) cc0_stg1_0 hz2 _ f w

/-- Row 0 of the scratch after the device's store holds its sums; -/
theorem read_row0 (c : Dev nD) : (A0 : View sig .tc .vmem S1x1x512 .f32).read (Elt F) (scr0 m c) = rowSum m c :=
  View.read_write_univ _ _

/-- the copy's source, row 0 read as a 1 × 512 array, is those sums re-indexed; -/
theorem read_src (c : Dev nD) (y : S1x512.Idx) :
    (srcM : Memref sig .tc .vmem S1x512 .f32).view.read (Elt F) (scr0 m c) y = rowSum m c (Shape.reshapeEquiv squeezes_S1x1x512_S1x512.numel_eq y) := by
  have h := congrFun (read_row0 m c) (Shape.reshapeEquiv squeezes_S1x1x512_S1x512.numel_eq y)
  rw [View.read_apply] at h ⊢
  exact h

/-- and row 1 after the partner's copy has landed holds the partner's sums. -/
theorem read_row1 (c : Dev nD) : (A1 : View sig .tc .vmem S1x1x512 .f32).read (Elt F) (scr1 m c) = rowSum m (peer c) := by
  funext x
  have h := congrFun (View.read_write_univ (v := (dstM : Memref sig .tc .vmem S1x512 .f32).view) (Val := Elt F) (m ((c : Thread nD τ).loc cc0_scratch0))
    ((srcM : Memref sig .tc .vmem S1x512 .f32).view.read (Elt F) (scr0 m (peer c)))) ((Shape.reshapeEquiv squeezes_S1x1x512_S1x512.numel_eq).symm x)
  rw [read_src, Equiv.apply_symm_apply] at h
  rw [← h, View.read_apply, View.read_apply]
  show _ = _root_.cast _ (scr1 m c ((A1 : View sig .tc .vmem S1x1x512 .f32).emb
    (Shape.reshapeEquiv squeezes_S1x1x512_S1x512.numel_eq ((Shape.reshapeEquiv squeezes_S1x1x512_S1x512.numel_eq).symm x))))
  rw [Equiv.apply_symm_apply]

/-- On row 0 the scratch after the store is `scr0`, whatever it held before. -/
theorem row0_after_store (c : Dev nD) (f : Buf (Elt F) ((c : Thread nD τ).loc cc0_scratch0)) :
    ∀ i ∈ (srcM : Memref sig .tc .vmem S1x512 .f32).view.set,
      (A0 : View sig .tc .vmem S1x1x512 .f32).write (Elt F) f (rowSum m c) Finset.univ i = scr0 m c i := fun i hi => by
  unfold scr0
  exact write_univ_congr (F := F) A0 f _ _ i (by rw [← R0_eq]; exact hi)

/-! ## The copy, at the exchange's cells -/

/-- The addressed copy of row 0 into the partner's row 1, the partner named `n = peer c` (substituted, not rewritten). -/
theorem wp_send_row (K : Dev nD × Fin 3 → ℕ) (c n : Dev nD) (hn : n = peer c)
    {hsc : (dstM : Memref sig (Dev.tc n : Thread nD τ).2.kind .vmem S1x512 .f32).view.ref.isScScratch = false}
    {hsrc : (srcM : Memref sig .tc .vmem S1x512 .f32).view.WordExact} {hdst : (dstM : Memref sig .tc .vmem S1x512 .f32).view.WordExact}
    {hsem : DmaTarget.Typed .vmem (.dma recvS.sem) (.remote (Dev.tc n : Thread nD τ) (dstM : Memref sig .tc .vmem S1x512 .f32) (.dma sendS.sem) hsc)}
    {α : Type} {Q : α → sProp 𝕄} {k : PUnit → Prog (TpuEff nD τ sig (Elt F) Λ₀ .tc) α}
    (fn : Buf (Elt F) ((dstM : Memref sig .tc .vmem S1x512 .f32).view.loc (peer c : Thread nD τ))) (W : Waits sig Unit) :
    iprop(cellInv ER (xchRd m) (K (c, 1)) (sendCell c) ∗ cellInv ER (xchRd m) (K (peer c, 2)) (recvCell (peer c))
        ∗ row0Pts c (scr0 m c) ∗ row1Pts (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sendS.sem) hsc) (.dma recvS.sem) hsrc hdst hsem) k) Q) := by
  subst hn
  unfold row0Pts row1Pts
  exact Rounds.wp_send_pointsTo 𝒱₀ ER (xchRd m) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by
      rw [payload_recv]; unfold recvPay row1Pts scr1; rw [peer_peer]
      exact Entails.of_eq (pointsTo_congr (write_univ_congr (F := F) (dstM : Memref sig .tc .vmem S1x512 .f32).view fn _ _)))

/-! ## The body -/

section Body

variable (K : Dev nD × Fin 3 → ℕ)

set_option maxHeartbeats 1600000 in
/-- The body, stepped from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs payToks
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  -- the scratch is its two rows
  ihave Hrows := (scratch_split (F := F) c f0).1 $$ Hscr
  icases Hrows with ⟨Hr0, Hr1⟩
  simp only [dev1_eq c]
  -- the SIGNAL to the partner's barrier cell: the device's own row 1 and its receive cell's round go with it
  iapply (Rounds.wp_signal 𝒱₀ ER (xchRd m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP Hr1]
  · isplitr; · iexact HIbarP
    isplitl [HO]; · iexact HO
    isplitl [HtBP]; · iexact HtBP
    isplitl [Hr1]
    · rw [payload_bar]; unfold barPay; rw [peer_peer]
      isplitl [Hr1]; · iexists f0; iexact Hr1
      iexact HrV
    · iexact HrBP
  iintro HO
  -- the block of `x` is loaded, row 0 loaded (its value unused) and stored with the sums
  iapply (wp_load 𝒱₀ (c : Thread nD τ) none Set.univ (m := xM) (Finset.subset_univ _)) $$ Hx; iintro Hx
  rw [read_x]
  unfold row0Pts
  iapply (wp_load_rect 𝒱₀ (c : Thread nD τ) none Set.univ (m := cM) (r := rect0) (by rw [← R0_eq])) $$ Hr0; iintro Hr0
  iapply (wp_store 𝒱₀ (c : Thread nD τ) none Set.univ (m := cM) (r := rect0) (Mk := Finset.univ) (by rw [View.setOn_univ, ← R0_eq])) $$ Hr0; iintro Hr0
  ihave Hr0 := (Entails.of_eq (pointsTo_congr (row0_after_store m c f0))) $$ Hr0
  -- the WAIT for the partner's unit on its own barrier cell, owing the partner's receive credit: the partner's row 1 comes with it
  iapply (Rounds.wp_wait_rest_token 𝒱₀ ER (xchRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HrowP⟩, #HrVP'⟩
  -- the COPY of row 0 into the partner's row 1
  iapply (wp_send_row m K c _ (dev2_eq c) fn (insert (SemLoc.reg barS, ()) W)) $$ [Hr0 HrowP HO HtS HtVP]
  · isplitr; · iexact HIsnd
    isplitr; · iexact HIrcvP
    isplitl [Hr0]; · unfold row0Pts; iexact Hr0
    isplitl [HrowP]; · iexact HrowP
    isplitl [HO]; · iexact HO
    isplitl [HtS]; · iexact HtS
    isplitr; · iexact HrS
    isplitl [HtVP]; · iexact HtVP
    iexact HrVP
  iintro ⟨HcS, HO⟩
  -- the wait on its SEND cell: row 0 back, holding the sums
  iapply (Rounds.wp_wait_rest_token 𝒱₀ ER (xchRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hr0 := (Entails.of_eq (rest_send m c)) $$ Hpay
  -- the wait on its RECEIVE cell: row 1, holding the partner's sums
  iapply (Rounds.wp_wait_rest_token 𝒱₀ ER (xchRd m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hr1 := (Entails.of_eq (rest_recv m c)) $$ Hpay
  unfold sendPay recvPay row0Pts row1Pts
  -- the two own cells close: their counters at zero are the device's again
  imod (Rounds.cell_close ER (xchRd m) (Set.mem_univ (K (c, 1))) (fun h => h) (R := 0 + 1) (duties_later m (sendCell c))) $$ [HatS] with HzS
  · isplitr; · iexact HIsnd
    iexact HatS
  imod (Rounds.cell_close ER (xchRd m) (Set.mem_univ (K (c, 2))) (fun h => h) (R := 0 + 1) (duties_later m (recvCell c))) $$ [HatV] with HzV
  · isplitr; · iexact HIrcv
    iexact HatV
  -- the two rows are loaded, the result staging buffer loaded (unused) and stored with their sum
  iapply (wp_load_rect 𝒱₀ (c : Thread nD τ) none Set.univ (m := cM) (r := rect0) (by rw [← R0_eq])) $$ Hr0; iintro Hr0
  rw [read_row0]
  iapply (wp_load_rect 𝒱₀ (c : Thread nD τ) none Set.univ (m := cM) (r := rect1) (by rw [← R1_eq])) $$ Hr1; iintro Hr1
  rw [read_row1]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m 0 c).owed t₀.succ = 0 from rfl]
  isplitl [Hr0 Hr1 HzS HzV]
  · isplitl [Hr0 Hr1]
    · isplitl [Hr0]; · unfold row0Pts; iexact Hr0
      unfold row1Pts; iexact Hr1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.Kernel.Hand.body_obligation' depends on axioms: [propext, Classical.choice, Quot.sound] -/
#guard_msgs in #print axioms body_obligation

end Cert.Kernel.Hand

end
-- ==== Proof.KernelLaunch.lean ====
import proofs.«901095_g7700000000001096_dist_sum_ax0_xy_m1024_n512_v7x_xy2x2_f32_1_alg».proof.Proof.KernelIdealRun
import proofs.«901095_g7700000000001096_dist_sum_ax0_xy_m1024_n512_v7x_xy2x2_f32_1_alg».proof.Proof.KernelBody

/-!
# The launch of the two-row column sum on the four devices

From "each device's body is proved from the exchange's ghost state" to the run of the whole program: the three cells of
every device are allocated for all devices at once (the barrier semaphore is the runtime's, not the kernel's own), the duty
tokens are dealt to the devices that pay them (a device's barrier and receive tokens go to its partner), the launch credit
of every cell is what its payer owes it, and every wait sits below what the waiter still owes.
-/

noncomputable section

namespace Cert.Kernel.Hand

open Cert.Kernel Cert.Kernel.Gen
open Cert.Hand (peer peer_peer peer_ne)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xchCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xchToks : Finset (GSem nD τ sig × ℕ × Unit) := Finset.univ.map ⟨tokOf, tokOf_injective⟩

def u₀ : UU :=
  (initOf (Pipeline.cells cfgs cellOf_inj) (Pipeline.launchToks cfgs cellOf_inj), initOf xchCells xchToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (xchRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_xch : BI.own (ER (initOf xchCells xchToks)) ⊢ (|==> bigSep Finset.univ (G m) : sProp 𝕄) := by
  have hX (Φ : GSem nD τ sig → sProp 𝕄) : bigSep xchCells Φ = bigSep Finset.univ fun c : Dev nD => bigSep Finset.univ fun k : Fin 3 => Φ (kcell (c, k)) := by
    unfold xchCells; rw [bigSep_map, bigSep_univ_prod]; rfl
  have hT : bigSep xchToks (fun x => (dutyTok ER x.1 x.2.1 x.2.2 : sProp 𝕄)) = bigSep Finset.univ fun c : Dev nD => toks c := by
    unfold xchToks; rw [bigSep_map, bigSep_univ_prod]
    exact bigSep_congr fun c _ => by unfold toks; rw [bigSep_fin3]; rfl
  iintro HX
  imod (Rounds.fund ER (xchRd m) xchCells xchToks) $$ HX with ⟨Hst, Hr, Hat, Htok⟩
  imodintro
  ihave Hst' := (Entails.of_eq (hX fun g => roundState ER (xchRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xchRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xchRd m) (kcell (c, k)) 0)
      ⊢ (|={Set.univ}=> bigSep Finset.univ fun k => iprop(∃ κ : ℕ, cellInv ER (xchRd m) κ (kcell (c, k))) : sProp 𝕄) from by
        rw [← bigSep_sep']
        exact (bigSep_mono fun k _ => (Rounds.body_intro ER (xchRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xchRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (xchRd m) (K ck) (kcell ck) : sProp 𝕄)) ⊢ cellInv ER (xchRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs payToks
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the rows of the mesh: a device's barrier token and receive token go to its partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xchRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (xchRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xchRd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
theorem eq_peer_iff {d c : Dev nD} : Iff (peer d = c) (d = peer c) :=
  ⟨fun h => by rw [← h, peer_peer], fun h => by rw [h, peer_peer]⟩

omit [FloatOps F] in
/-- What device `d` owes device `c`'s barrier cell: a unit if `d` is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iapply (scratch_join (F := F) c (scr0 m c) (scr1 m c)); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters, GIVEN each device's body:
    every weakly fair execution of @main terminates, and every final state has each device's arrays at the computed contents. -/
theorem run_of_body (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_xch m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m c (0 : Fin 2) = m (win0_0.arr.view.loc (c : Thread nD τ)) :=
  (dats (F := F) m 0 c).arrAt_in (0 : Fin 2) rfl _

end Cert.Kernel.Hand

end
-- ==== Proof.KernelRun.lean ====
import proofs.«901095_g7700000000001096_dist_sum_ax0_xy_m1024_n512_v7x_xy2x2_f32_1_alg».proof.Proof.KernelIdealRun
import proofs.«901095_g7700000000001096_dist_sum_ax0_xy_m1024_n512_v7x_xy2x2_f32_1_alg».proof.Proof.KernelBody
import proofs.«901095_g7700000000001096_dist_sum_ax0_xy_m1024_n512_v7x_xy2x2_f32_1_alg».proof.Proof.KernelLaunch

/-!
# The run of the two-row column sum on the four devices, with its values

Every weakly fair execution terminates; each device's block of `x` ends as it was launched, and its result array ends
holding its column sums plus its partner's.
-/

noncomputable section

namespace Cert.Kernel.Hand

open Cert.Kernel Cert.Kernel.Gen
open Cert.Hand (peer peer_peer peer_ne)

open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

theorem run_main : θ_run defs (onTc (τ := τ) (main (F := F))) ⟨m, fun _ => 0, ρ⟩ (QC m) :=
  run_of_body m ρ (body_obligation m)

/-- The result array's one block (the whole array) read back is what the body left in the result staging buffer. -/
theorem final_out_read (c : Dev nD) :
    (win0_1.blk (0 : Fin 1)).view.read (Elt F) (finalA m c (1 : Fin 2)) = outAt m c := by
  unfold finalA
  rw [show cfg0.N = (t₀ : Fin cfg0.N).val + 1 from rfl, (dats m 0 c).arrAt_succ (1 : Fin 2) t₀]
  rw [show (cfg0.win (1 : Fin 2)).flush t₀ = true from flush0_1 t₀, if_pos rfl]
  exact View.read_write_univ _ _

/-- So the result array ends holding the device's sums plus its partner's. -/
theorem final_out (c : Dev nD) : finalA m c (1 : Fin 2) = outAt m c := by
  have h := final_out_read m c
  have hz : (fun a => (win0_1.index (0 : Fin 1)) a * main_v1.ty.shape.size a) = fun _ => 0 := funext fun a => by fin_cases a <;> decide
  rw [Memref.read_access_unit_zero (Elt F) main_v1 hz (fun a => by fin_cases a <;> decide)] at h
  exact h

/-- The block of `x` a device sums is its argument array as launched. -/
theorem xblk_eq (c : Dev nD) : xblk m c = m ((c : Thread nD τ).loc main_arg0) := by
  unfold xblk
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- THE RUN, with values: every weakly fair execution of @main on the four devices terminates, each device's result array
    ends at its column sums plus its partner's (the kernel's two payloads of the two argument blocks), and its argument
    array ends unchanged. -/
theorem run :
    θ_run defs (onTc (τ := τ) (main (F := F))) ⟨m, fun _ => 0, ρ⟩ (fun r => ∀ c : Dev nD,
      r.2.mem ((c.tc : Thread nD τ).loc main_v1)
          = k0_pay1 (k0_pay2 (m ((c : Thread nD τ).loc main_arg0))) (k0_pay2 (m ((peer c : Thread nD τ).loc main_arg0)))
        ∧ r.2.mem ((c.tc : Thread nD τ).loc main_arg0) = m ((c.tc : Thread nD τ).loc main_arg0)) :=
  (θ_run defs _ _).mono (fun _ h c =>
      ⟨((h c (1 : Fin 2)).trans (final_out m c)).trans (by unfold outAt rowSum; rw [xblk_eq, xblk_eq]),
       (h c (0 : Fin 2)).trans (finalA_x m c)⟩)
    (run_main m ρ)

/-- info: 'Cert.Kernel.Hand.run' depends on axioms: [propext, Classical.choice, Quot.sound] -/
#guard_msgs in #print axioms run

end Cert.Kernel.Hand

end
-- ==== Proof.lean ====
/-
  The two-row column sum on a 2 × 2 mesh against `sum(x, axis = 0, keepdims)` on one device.

  Device `c` (mesh row `c / 2`, column `c % 2`) holds the 1024 × 512 block of `x` its coordinates name, sums it over its
  rows, exchanges the 512 sums with the device of the other mesh row in its column, and adds the two rows of sums: the
  sum over all 2048 rows of the 512 columns of its mesh column, which is its block of the reference's 1 × 1024 result.
  Over the extended reals the two sides differ only in the order and grouping of a sum, and addition there is
  commutative and associative: no finiteness is needed.

  The frames of the two printed kernels are their runs with the values dropped (one text at both float instances); the
  reference's frame is its run; nothing was rewritten by the idealization, so `preserves` is `True`.
-/
import proofs.«901095_g7700000000001096_dist_sum_ax0_xy_m1024_n512_v7x_xy2x2_f32_1_alg».proof.Defs
import proofs.«901095_g7700000000001096_dist_sum_ax0_xy_m1024_n512_v7x_xy2x2_f32_1_alg».proof.Proof.Gen.Kernel
import proofs.«901095_g7700000000001096_dist_sum_ax0_xy_m1024_n512_v7x_xy2x2_f32_1_alg».proof.Proof.Gen.KernelIdeal
import proofs.«901095_g7700000000001096_dist_sum_ax0_xy_m1024_n512_v7x_xy2x2_f32_1_alg».proof.Proof.Gen.ReferenceIdeal
import proofs.«901095_g7700000000001096_dist_sum_ax0_xy_m1024_n512_v7x_xy2x2_f32_1_alg».proof.Proof.Gen.Pre_finite_inputs_Kernel
import proofs.«901095_g7700000000001096_dist_sum_ax0_xy_m1024_n512_v7x_xy2x2_f32_1_alg».proof.Proof.Gen.Pre_finite_inputs_ReferenceIdeal
import proofs.«901095_g7700000000001096_dist_sum_ax0_xy_m1024_n512_v7x_xy2x2_f32_1_alg».proof.Proof.Gen.ReferenceIdeal.Run
import proofs.«901095_g7700000000001096_dist_sum_ax0_xy_m1024_n512_v7x_xy2x2_f32_1_alg».proof.Proof.Gen.ReferenceIdeal.Read
import proofs.«901095_g7700000000001096_dist_sum_ax0_xy_m1024_n512_v7x_xy2x2_f32_1_alg».proof.Proof.KernelRun
import proofs.«901095_g7700000000001096_dist_sum_ax0_xy_m1024_n512_v7x_xy2x2_f32_1_alg».proof.Proof.KernelIdealRun
import proofs.«901095_g7700000000001096_dist_sum_ax0_xy_m1024_n512_v7x_xy2x2_f32_1_alg».proof.Proof.ColumnSums

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Each device's result is its block of the reference's: the kernel's run names the result as the two payloads of the
    device's and its partner's argument blocks, those blocks are blocks of the reference's whole array, and the sums agree. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.Hand.out_block _ (fun d : Fin 4 => m ((Dev.tc (nD := Cert.KernelIdeal.nD) d : Thread Cert.KernelIdeal.nD Cert.KernelIdeal.τ).loc Cert.KernelIdeal.main_arg0)) hagree c), (h c).2⟩)
      (Cert.KernelIdeal.Hand.run (F := Ideal) m ρ)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
